-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S1024x512 : Shape := ⟨2, ![1024, 512]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S16x512, .f32⟩
  | .local _ .vmem, ⟨5, _⟩ => ⟨S16x512, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x16_S16x512_S1024x512_1_0_0_1_n_n_wf : DotDims.WF S1024x16 S16x512 S1024x512 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S16x4096_S4096x16_S4096x4096_0_1_1_0_n_n_wf : DotDims.WF S16x4096 S4096x16 S4096x4096 [0] [1] [1] [0] [] []
  dot_S4x2048x4096_S4096x4096_S4x2048x4096_2_1_01_0_n_n_wf : DotDims.WF S4x2048x4096 S4096x4096 S4x2048x4096 [2] [1] [0, 1] [0] [] []

variable [Facts₀]

def dot_S16x4096_S4096x16_S4096x4096_0_1_1_0_n_n : DotDims S16x4096 S4096x16 S4096x4096 where
  lhsContracting := [0]
  rhsContracting := [1]
  lhsNonContracting := [1]
  rhsNonContracting := [0]
  lhsBatch := []
  rhsBatch := []
  wf := dot_S16x4096_S4096x16_S4096x4096_0_1_1_0_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibStretchSum.lean ====
/-
  Sums cut into equal stretches.  A sum over the first `a * b` naturals is the sum, over the `a` stretches of
  length `b`, of each stretch's own sum: only commutativity and associativity of `+` are used, so the statement
  holds in every additive commutative monoid (the extended reals among them, infinities included).
-/
import Mathlib.Algebra.BigOperators.Intervals
import Mathlib.Algebra.BigOperators.Fin

namespace Cert.Algebra

open Finset

/-- `∑_{s<a} ∑_{q<b} f (b·s + q) = ∑_{k<a·b} f k`. -/
theorem sum_range_stretches {β : Type*} [AddCommMonoid β] (f : ℕ → β) (b : ℕ) :
    ∀ a : ℕ, ∑ s ∈ range a, ∑ q ∈ range b, f (b * s + q) = ∑ k ∈ range (a * b), f k
  | 0 => by simp
  | a + 1 => by
    rw [sum_range_succ, sum_range_stretches f b a, Nat.succ_mul, sum_range_add, Nat.mul_comm b a]

/-- The same with the inner sums over `Fin b` and the whole sum over `Fin (a * b)`. -/
theorem sum_fin_stretches {β : Type*} [AddCommMonoid β] (f : ℕ → β) (a b : ℕ) :
    ∑ s ∈ range a, ∑ q : Fin b, f (b * s + q.val) = ∑ k : Fin (a * b), f k.val := by
  rw [Fin.sum_univ_eq_sum_range (fun k => f k) (a * b), ← sum_range_stretches f b a]
  exact sum_congr rfl fun s _ => Fin.sum_univ_eq_sum_range (fun q => f (b * s + q)) b

end Cert.Algebra
-- ==== Proof.Spec.lean ====
/-
  What both programs compute, and the one law that joins their two arrangements of it.

  With `X` the activations flattened to 8192 rows, `W` the base weight, `A` and `B` the two low-rank factors and `b`
  the bias, the result at row `R` and output column `C` is

      ∑ i, X[R, i] · (W[C, i] · (∑ r, B[C, r] · A[r, i] + 1))  +  b[C].

  One program adds the outer sum up in 8 stretches of 512 consecutive `i`, the other in one sum over all 4096
  indices. Only commutativity and associativity of `+` separate the two, so the equality holds over the extended
  reals with no finiteness assumption.
-/
import Idealize.ShloMosaic.PureOps.Ideal
import Idealize.ShloMosaic.Lib.ValueIdx
import proofs.«153794_j3977139716930_1_alg».proof.Proof.LibStretchSum

noncomputable section

open scoped BigOperators

namespace Cert.Lora

open Idealize.ShloMosaic Idealize.ShloMosaic.ValueIdx

/-- The number one, as both programs spell it. -/
abbrev one : Ideal .f32 := Ideal.ofBits .f32 0x3F800000#32

/-- One summand of the adapted product: activation row `R`, output column `C`, input index `i`. The weight entry
    `W[C, i]` is scaled by one plus the rank-16 product `(B · A)[C, i]`. -/
def term (X : (⟨2, ![8192, 4096]⟩ : Shape).Idx → Ideal .f32) (W : (⟨2, ![4096, 4096]⟩ : Shape).Idx → Ideal .f32)
    (A : (⟨2, ![16, 4096]⟩ : Shape).Idx → Ideal .f32) (B : (⟨2, ![4096, 16]⟩ : Shape).Idx → Ideal .f32)
    (R : Fin 8192) (C : Fin 4096) (i : Fin 4096) : Ideal .f32 :=
  X (ix2 R i) * (W (ix2 C i) * ((∑ r : Fin 16, B (ix2 C r) * A (ix2 r i)) + one))

/-- The result over the flattened rows: the full sum of the summands plus the bias of the column. -/
def flat (X : (⟨2, ![8192, 4096]⟩ : Shape).Idx → Ideal .f32) (W : (⟨2, ![4096, 4096]⟩ : Shape).Idx → Ideal .f32)
    (A : (⟨2, ![16, 4096]⟩ : Shape).Idx → Ideal .f32) (B : (⟨2, ![4096, 16]⟩ : Shape).Idx → Ideal .f32)
    (b : (⟨2, ![1, 4096]⟩ : Shape).Idx → Ideal .f32) : (⟨2, ![8192, 4096]⟩ : Shape).Idx → Ideal .f32 :=
  fun j => (∑ i : Fin 4096, term X W A B (j 0) (j 1) i) + b (ix2 0 (j 1))

/-- Index `q` of stretch `k` is an index. -/
theorem stretch_lt (k : Fin 8) (q : Fin 512) : k.val * 512 + q.val < 4096 := by
  have := k.isLt; have := q.isLt; omega

/-- A sum over 4096 indices is the sum, over its 8 stretches of 512, of each stretch's own sum. -/
theorem sum_stretches {β : Type} [AddCommMonoid β] (g : Fin 4096 → β) :
    ∑ k : Fin 8, ∑ q : Fin 512, g ⟨k.val * 512 + q.val, stretch_lt k q⟩ = ∑ i : Fin 4096, g i := by
  have h := Cert.Algebra.sum_fin_stretches (fun n => if h : n < 4096 then g ⟨n, h⟩ else 0) 8 512
  rw [← Fin.sum_univ_eq_sum_range (fun s => ∑ q : Fin 512, (fun n => if h : n < 4096 then g ⟨n, h⟩ else 0) (512 * s + q.val)) 8] at h
  have hl : ∑ k : Fin 8, ∑ q : Fin 512, g ⟨k.val * 512 + q.val, stretch_lt k q⟩
      = ∑ s : Fin 8, ∑ q : Fin 512, (fun n => if h : n < 4096 then g ⟨n, h⟩ else 0) (512 * s.val + q.val) := by
    refine Finset.sum_congr rfl fun k _ => Finset.sum_congr rfl fun q _ => ?_
    have hlt : 512 * k.val + q.val < 4096 := by have := stretch_lt k q; omega
    show _ = if h : 512 * k.val + q.val < 4096 then g ⟨512 * k.val + q.val, h⟩ else 0
    rw [dif_pos hlt]
    exact congrArg g (Fin.ext (by show k.val * 512 + q.val = 512 * k.val + q.val; omega))
  have hr : ∑ k : Fin (8 * 512), (fun n => if h : n < 4096 then g ⟨n, h⟩ else 0) k.val = ∑ i : Fin 4096, g i := by
    show ∑ k : Fin 4096, (fun n => if h : n < 4096 then g ⟨n, h⟩ else 0) k.val = ∑ i : Fin 4096, g i
    refine Finset.sum_congr rfl fun i _ => ?_
    show (if h : i.val < 4096 then g ⟨i.val, h⟩ else 0) = g i
    rw [dif_pos i.isLt]
  exact hl.trans (h.trans hr)

end Cert.Lora

end
-- ==== Proof.Pieces.lean ====
/-
  What one grid point leaves behind, as values.

  A grid point `(i, j, k)` works on the `1024 × 1024` tile `(i, j)` of the result and on stretch `k` of the
  contraction axis. The accumulator tile lives in a scratch buffer carried from point to point. Writing
  `step acc` for "the accumulator plus this point's `1024 × 512` by `512 × 1024` product" (the body's second store) and
  `emit acc` for "the accumulator plus the bias row" (its third store):

    * at `k = 0` the point zeroes the accumulator first, so it leaves `step 0`;
    * at `0 < k` it leaves `step acc` of what the point before left;
    * at `k = 7` it also writes `emit (step acc)` into the result tile.

  Each statement is read off the covering store the point's run ends with; every load in it reads a whole buffer.
-/
import proofs.«153794_j3977139716930_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- First point of a stretch: the accumulator is zeroed, read back, and left at the zero tile plus the point's product. -/
theorem scratch_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x512 .f32) (x1 : Vec F S1024x512 .f32) (x2 : Vec F S16x512 .f32) (x3 : Vec F S1024x16 .f32) (x4 : Vec F S1x1024 .f32) :
    sout0_A_0 c i arg3 harg3 arg4 harg4 arg5 harg5 arg6 harg6 arg7 harg7 arg8 harg8 arg9 harg9 hc0 hc1 x0 x1 x2 x3 x4 = k0_pay2 x3 x2 x1 x0 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg9.read_unread,
    View.ld_unit_zero (S := S1024x16) hz, View.ld_unit_zero (S := S16x512) hz, View.ld_unit_zero (S := S1024x512) hz,
    View.ld_unit_zero (S := S1024x1024) hz, View.ld_unit_zero (S := S1x1024) hz]

/-- A middle point of a stretch: the accumulator is left at what it held plus the point's product. -/
theorem scratch_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x512 .f32) (x1 : Vec F S1024x512 .f32) (x2 : Vec F S16x512 .f32) (x3 : Vec F S1024x16 .f32) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x3 x2 x1 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg7.read_unread, harg9.read_unread,
    View.ld_unit_zero (S := S1024x16) hz, View.ld_unit_zero (S := S16x512) hz, View.ld_unit_zero (S := S1024x512) hz,
    View.ld_unit_zero (S := S1024x1024) hz, View.ld_unit_zero (S := S1x1024) hz]

/-- Last point of a stretch: the accumulator, likewise. -/
theorem scratch_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S1024x512 .f32) (x2 : Vec F S16x512 .f32) (x3 : Vec F S1024x16 .f32) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x3 x2 x1 x0 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread,
    View.ld_unit_zero (S := S1024x16) hz, View.ld_unit_zero (S := S16x512) hz, View.ld_unit_zero (S := S1024x512) hz,
    View.ld_unit_zero (S := S1024x1024) hz, View.ld_unit_zero (S := S1x1024) hz]

/-- Last point of a stretch: the result tile is the updated accumulator, read back, plus the bias row. -/
theorem tile_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S1024x512 .f32) (x2 : Vec F S16x512 .f32) (x3 : Vec F S1024x16 .f32) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 (k0_pay2 x3 x2 x1 x0 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg9.read_unread,
    View.ld_unit_zero (S := S1024x16) hz, View.ld_unit_zero (S := S16x512) hz, View.ld_unit_zero (S := S1024x512) hz,
    View.ld_unit_zero (S := S1024x1024) hz, View.ld_unit_zero (S := S1x1024) hz]

end Cert.KernelIdeal.Pieces

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibDotNT.lean ====
/-
  A matrix product of two row-major operands contracted along their LAST axes, read at an entry.

  For dimension numbers that contract axis 1 of an `M × K` left operand with axis 1 of an `N × K` right operand
  (`l · rᵀ`, what `dot_general(a, b, (((1,), (1,)), ((), ())))` prints) and have no batch axes, the contraction index is one
  coordinate `k : Fin K`, the left operand is read at `(a, k)` and the right operand at `(b, k)`: the sum over the
  contraction index is `∑ k : Fin K`. At the ideal instance this reads a kernel's matrix product into a zero
  accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

/-- The sum over the contraction index of an `M × K` by `N × K` product contracted along both last axes, as a sum over
    `Fin K`. -/
theorem nt_sum {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    {α : Type} [AddCommMonoid α] (f : (⟨2, ![M, K]⟩ : Shape).Idx → (⟨2, ![N, K]⟩ : Shape).Idx → α) (a : Fin M) (b : Fin N) :
    ∑ k : d.contr.Idx, f (d.lhsIdx (ix2 a b) k) (d.rhsIdx (ix2 a b) k) = ∑ k : Fin K, f (ix2 a k) (ix2 b k) := by
  obtain ⟨lc, rc, ln, rn, lb, rb, wf⟩ := d
  dsimp only at h1 h2 h3 h4 h5 h6
  subst h1 h2 h3 h4 h5 h6
  have hr : (DotDims.mk [1] [1] [0] [0] [] [] wf : DotDims ⟨2, ![M, K]⟩ ⟨2, ![N, K]⟩ ⟨2, ![M, N]⟩).contr.rank = 1 := rfl
  have hs : (DotDims.mk [1] [1] [0] [0] [] [] wf : DotDims ⟨2, ![M, K]⟩ ⟨2, ![N, K]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product `l · rᵀ` into the zero accumulator, at the ideal instance, at entry `(a, b)`. -/
theorem matmul_zero_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    matmul d prec l r (constant ⟨2, ![M, N]⟩ .f32 0x00000000#32) (ix2 a b) = ∑ k : Fin K, l (ix2 a k) * r (ix2 b k) := by
  show FloatOps.matmul d prec l r (constant ⟨2, ![M, N]⟩ .f32 0x00000000#32) (ix2 a b) = _
  rw [Ideal.matmul_constant_zero_apply]
  exact nt_sum d h1 h2 h3 h4 h5 h6 (fun i j => l i * r j) a b

/-- A host program's `dot_general` of the same dimension numbers, at the ideal instance, at entry `(a, b)`. -/
theorem dotGeneral_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    Host.dotGeneral d prec l r (ix2 a b) = ∑ k : Fin K, l (ix2 a k) * r (ix2 b k) := by
  show FloatOps.dotGeneral d prec .single l r (ix2 a b) = _
  rw [Ideal.dotGeneral_apply]
  exact nt_sum d h1 h2 h3 h4 h5 h6 (fun i j => l i * r j) a b

end Cert.LibDotNT

end
-- ==== Proof.Payload.lean ====
/-
  The body's three stored values, read at one entry, over the extended reals.

  At the ideal instance a change of float format is the identity and a matrix product into a zero accumulator is the
  plain sum over the contraction index. So, at entry `(p, q)` of the `1024 × 1024` tile:

    * the reset value is `0`;
    * the update is `acc[p, q] + ∑ j < 512, x[p, j] · (w[q, j] · (∑ r < 16, b[q, r] · a[r, j] + 1))`: the second product
      contracts the LAST axes of its two operands, the first one the inner axes;
    * the emitted value is `acc[p, q] + bias[0, q]`: the bias row is broadcast down the tile's rows.
-/
import proofs.«153794_j3977139716930_1_alg».proof.Proof.Gen.KernelIdeal.Skeleton
import proofs.«153794_j3977139716930_1_alg».proof.Proof.LibDot
import proofs.«153794_j3977139716930_1_alg».proof.Proof.LibDotNT
import Idealize.ShloMosaic.Lib.Pipeline.Value
import Idealize.ShloMosaic.Lib.ValueIdx
import Idealize.ShloMosaic.Lib.IdealHost

noncomputable section

open scoped BigOperators

namespace Cert.KernelIdeal.Payload

open Idealize.ShloMosaic Idealize.ShloMosaic.ValueIdx
open Cert.KernelIdeal Cert.KernelIdeal.Gen

/-- The reset tile is zero everywhere. -/
theorem reset_apply (j : S1024x1024.Idx) : k0_pay1 (F := Ideal) j = 0 := by
  unfold k0_pay1
  simp only [shapeCast_self]
  show Ideal.ofBits .f32 0x00000000#32 = 0
  exact Ideal.ofBits_zero_f32

/-- The update at entry `(p, q)`: the accumulator's entry plus the stretch's share of the adapted product. -/
theorem update_apply (v3 : Vec Ideal S1024x16 .f32) (v5 : Vec Ideal S16x512 .f32) (v8 v13 : Vec Ideal S1024x512 .f32)
    (v16 : Vec Ideal S1024x1024 .f32) (p q : Fin 1024) :
    k0_pay2 v3 v5 v8 v13 v16 (ix2 p q)
      = v16 (ix2 p q) + ∑ j : Fin 512, v13 (ix2 p j) * (v8 (ix2 q j)
          * ((∑ r : Fin 16, v3 (ix2 q r) * v5 (ix2 r j)) + Ideal.ofBits .f32 0x3F800000#32)) := by
  unfold k0_pay2
  simp only [shapeCast_self]
  rw [addf_apply, Cert.LibDotNT.matmul_zero_apply dot_S1024x512_S1024x512_S1024x1024_1_1_0_0_n_n rfl rfl rfl rfl rfl rfl]
  refine congrArg (v16 (ix2 p q) + ·) (Finset.sum_congr rfl fun j _ => ?_)
  rw [truncf_apply, truncf_apply, mulf_apply, addf_apply,
    Cert.LibDot.matmul_zero_apply dot_S1024x16_S16x512_S1024x512_1_0_0_1_n_n rfl rfl rfl rfl rfl rfl]
  rfl

/-- The emitted value at entry `(p, q)`: the accumulator's entry plus the bias of column `q`. -/
theorem emit_apply (v25 : Vec Ideal S1024x1024 .f32) (v26 : Vec Ideal S1x1024 .f32) (p q : Fin 1024) :
    k0_pay3 v25 v26 (ix2 p q) = v25 (ix2 p q) + v26 (ix2 0 q) := by
  unfold k0_pay3
  simp only [shapeCast_self]
  rw [addf_apply]
  refine congrArg (v25 (ix2 p q) + ·) ?_
  exact broadcastTo_apply v26 broadcasts_S1x1024_S1024x1024 (ix2 p q) (ix2 0 q) (fun a => match a with
    | ⟨0, _⟩ => by show (0 : ℕ) = if (1 : ℕ) = 1 then 0 else _; rw [if_pos rfl]
    | ⟨1, _⟩ => by show q.val = if (1024 : ℕ) = 1 then 0 else q.val; rw [if_neg (by decide)])

end Cert.KernelIdeal.Payload

end
-- ==== Proof.Blocks.lean ====
/-
  Where a grid point's blocks sit in their arrays.

  Point `t` of the 8 × 4 × 8 grid, counted row-major, has coordinates `(t / 32, (t / 8) % 4, t % 8)`: the result
  tile's row band, its column band, and the stretch of the contraction axis. Its activation block is rows
  `1024 · (t / 32) + p`, columns `512 · (t % 8) + j` of the flattened activations; its weight block rows
  `1024 · ((t / 8) % 4) + q` and the same columns; the two low-rank factors and the bias follow the column band and the
  stretch in the same way. The flattened activations and the bias row are the arguments reshaped by the host
  operations before the launch.
-/
import proofs.«153794_j3977139716930_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The grid has 256 points. -/
theorem lt256 (t : Fin cfg0.N) : t.val < 256 := lt_of_lt_of_eq t.isLt (show cfg0.N = 256 from N_0)

/-! ## The index maps, decided once over the grid -/

theorem idx_x : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
theorem idx_w : ∀ t : Fin cfg0.N, win0_1.index t (0 : Fin 2) = t.val / 8 % 4 ∧ win0_1.index t (1 : Fin 2) = t.val % 8 :=
  (by decide +kernel : ∀ t : Fin grid0.N, win0_1.index t (0 : Fin 2) = t.val / 8 % 4 ∧ win0_1.index t (1 : Fin 2) = t.val % 8)
theorem idx_a : ∀ t : Fin cfg0.N, win0_2.index t (0 : Fin 2) = 0 ∧ win0_2.index t (1 : Fin 2) = t.val % 8 :=
  (by decide +kernel : ∀ t : Fin grid0.N, win0_2.index t (0 : Fin 2) = 0 ∧ win0_2.index t (1 : Fin 2) = t.val % 8)
theorem idx_b : ∀ t : Fin cfg0.N, win0_3.index t (0 : Fin 2) = t.val / 8 % 4 ∧ win0_3.index t (1 : Fin 2) = 0 :=
  (by decide +kernel : ∀ t : Fin grid0.N, win0_3.index t (0 : Fin 2) = t.val / 8 % 4 ∧ win0_3.index t (1 : Fin 2) = 0)
theorem idx_bias : ∀ t : Fin cfg0.N, win0_4.index t (0 : Fin 2) = 0 ∧ win0_4.index t (1 : Fin 2) = t.val / 8 % 4 :=
  (by decide +kernel : ∀ t : Fin grid0.N, win0_4.index t (0 : Fin 2) = 0 ∧ win0_4.index t (1 : Fin 2) = t.val / 8 % 4)
theorem idx_out : ∀ t : Fin cfg0.N, win0_5.index t (0 : Fin 2) = t.val / 32 ∧ win0_5.index t (1 : Fin 2) = t.val / 8 % 4 :=
  (by decide +kernel : ∀ t : Fin grid0.N, win0_5.index t (0 : Fin 2) = t.val / 32 ∧ win0_5.index t (1 : Fin 2) = t.val / 8 % 4)

/-! ## The arrays the region finds, and a point's blocks, at their literal types -/

abbrev xarr (c : Dev nD) : Vec F S8192x4096 .f32 := V m c main_v0
abbrev warr (c : Dev nD) : Vec F S4096x4096 .f32 := V m c main_arg1
abbrev aarr (c : Dev nD) : Vec F S16x4096 .f32 := V m c main_arg3
abbrev barr (c : Dev nD) : Vec F S4096x16 .f32 := V m c main_arg4
abbrev biasarr (c : Dev nD) : Vec F S1x4096 .f32 := V m c main_v1

abbrev xblk (c : Dev nD) (t : Fin cfg0.N) : Vec F S1024x512 .f32 := iblk m c 0 t
abbrev wblk (c : Dev nD) (t : Fin cfg0.N) : Vec F S1024x512 .f32 := iblk m c 1 t
abbrev ablk (c : Dev nD) (t : Fin cfg0.N) : Vec F S16x512 .f32 := iblk m c 2 t
abbrev bblk (c : Dev nD) (t : Fin cfg0.N) : Vec F S1024x16 .f32 := iblk m c 3 t
abbrev biasblk (c : Dev nD) (t : Fin cfg0.N) : Vec F S1x1024 .f32 := iblk m c 4 t

/-- Row `p` of band `t / 32`, and column `j` of stretch `t % 8`. -/
theorem row_lt (t : Fin cfg0.N) (p : Fin 1024) : t.val / 32 * 1024 + p.val < 8192 := by
  have := lt256 t; have := p.isLt; omega
theorem col_lt (t : Fin cfg0.N) (j : Fin 512) : t.val % 8 * 512 + j.val < 4096 := by
  have := j.isLt; omega
theorem band_lt (t : Fin cfg0.N) (q : Fin 1024) : t.val / 8 % 4 * 1024 + q.val < 4096 := by
  have := q.isLt; omega

theorem xblk_apply (c : Dev nD) (t : Fin cfg0.N) (p : Fin 1024) (j : Fin 512) :
    xblk m c t (ix2 p j) = xarr m c (ix2 ⟨t.val / 32 * 1024 + p.val, row_lt t p⟩ ⟨t.val % 8 * 512 + j.val, col_lt t j⟩) := by
  have hi := idx_x t
  show (((cfg0.win 0).blk t).view.read (Elt F) (V m c (Pipeline.arrRef spec0 0))) (ix2 p j) = _
  rw [View.read_apply]
  show V m c main_v0 _ = V m c main_v0 _
  congr 1
  funext a
  apply Fin.ext
  match a with
  | ⟨0, _⟩ => show win0_0.index t 0 * 1024 + 1 * p.val = t.val / 32 * 1024 + p.val; rw [hi.1]; omega
  | ⟨1, _⟩ => show win0_0.index t 1 * 512 + 1 * j.val = t.val % 8 * 512 + j.val; rw [hi.2]; omega

theorem wblk_apply (c : Dev nD) (t : Fin cfg0.N) (q : Fin 1024) (j : Fin 512) :
    wblk m c t (ix2 q j) = warr m c (ix2 ⟨t.val / 8 % 4 * 1024 + q.val, band_lt t q⟩ ⟨t.val % 8 * 512 + j.val, col_lt t j⟩) := by
  have hi := idx_w t
  show (((cfg0.win 1).blk t).view.read (Elt F) (V m c (Pipeline.arrRef spec0 1))) (ix2 q j) = _
  rw [View.read_apply]
  show V m c main_arg1 _ = V m c main_arg1 _
  congr 1
  funext a
  apply Fin.ext
  match a with
  | ⟨0, _⟩ => show win0_1.index t 0 * 1024 + 1 * q.val = t.val / 8 % 4 * 1024 + q.val; rw [hi.1]; omega
  | ⟨1, _⟩ => show win0_1.index t 1 * 512 + 1 * j.val = t.val % 8 * 512 + j.val; rw [hi.2]; omega

theorem ablk_apply (c : Dev nD) (t : Fin cfg0.N) (r : Fin 16) (j : Fin 512) :
    ablk m c t (ix2 r j) = aarr m c (ix2 r ⟨t.val % 8 * 512 + j.val, col_lt t j⟩) := by
  have hi := idx_a t
  show (((cfg0.win 2).blk t).view.read (Elt F) (V m c (Pipeline.arrRef spec0 2))) (ix2 r j) = _
  rw [View.read_apply]
  show V m c main_arg3 _ = V m c main_arg3 _
  congr 1
  funext a
  apply Fin.ext
  match a with
  | ⟨0, _⟩ => show win0_2.index t 0 * 16 + 1 * r.val = r.val; rw [hi.1]; omega
  | ⟨1, _⟩ => show win0_2.index t 1 * 512 + 1 * j.val = t.val % 8 * 512 + j.val; rw [hi.2]; omega

theorem bblk_apply (c : Dev nD) (t : Fin cfg0.N) (q : Fin 1024) (r : Fin 16) :
    bblk m c t (ix2 q r) = barr m c (ix2 ⟨t.val / 8 % 4 * 1024 + q.val, band_lt t q⟩ r) := by
  have hi := idx_b t
  show (((cfg0.win 3).blk t).view.read (Elt F) (V m c (Pipeline.arrRef spec0 3))) (ix2 q r) = _
  rw [View.read_apply]
  show V m c main_arg4 _ = V m c main_arg4 _
  congr 1
  funext a
  apply Fin.ext
  match a with
  | ⟨0, _⟩ => show win0_3.index t 0 * 1024 + 1 * q.val = t.val / 8 % 4 * 1024 + q.val; rw [hi.1]; omega
  | ⟨1, _⟩ => show win0_3.index t 1 * 16 + 1 * r.val = r.val; rw [hi.2]; omega

theorem biasblk_apply (c : Dev nD) (t : Fin cfg0.N) (q : Fin 1024) :
    biasblk m c t (ix2 0 q) = biasarr m c (ix2 0 ⟨t.val / 8 % 4 * 1024 + q.val, band_lt t q⟩) := by
  have hi := idx_bias t
  show (((cfg0.win 4).blk t).view.read (Elt F) (V m c (Pipeline.arrRef spec0 4))) (ix2 0 q) = _
  rw [View.read_apply]
  show V m c main_v1 _ = V m c main_v1 _
  congr 1
  funext a
  apply Fin.ext
  match a with
  | ⟨0, _⟩ => show win0_4.index t 0 * 1 + 1 * 0 = 0; rw [hi.1]
  | ⟨1, _⟩ => show win0_4.index t 1 * 1024 + 1 * q.val = t.val / 8 % 4 * 1024 + q.val; rw [hi.2]; omega

/-! ## The two arrays the host writes before the launch -/

/-- The flattened activations are the activations reshaped. -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The bias row is the bias reshaped. -/
theorem biasarr_eq (c : Dev nD) :
    biasarr m c = shapeCast S1x4096 (m ((c : Thread nD τ).loc main_arg2)) shapeCasts_S4096_S1x4096 := by
  show StableHlo.after hostOps0 (fun b => m (c, b)) (Proc.devRef .tc main_v1) = _
  after_results
  rfl

end Cert.KernelIdeal.Blocks

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.Acc.lean ====
/-
  The accumulator tile, point by point, and the result tile it ends in.

  Fix an entry `(p, q)` of the tile. Point `t` adds its SHARE to the accumulator: the part of the adapted product's
  sum that runs over the point's stretch of 512 contraction indices. The first point of a group of 8 starts from
  zero, each later one from what the point before left, so after the last point of a group the accumulator holds the
  sum of the group's 8 shares: the sum over all 4096 contraction indices, cut into its 8 stretches. That last point
  writes the accumulator plus the bias of the column into the result tile.
-/
import proofs.«153794_j3977139716930_1_alg».proof.Proof.Spec
import proofs.«153794_j3977139716930_1_alg».proof.Proof.Pieces
import proofs.«153794_j3977139716930_1_alg».proof.Proof.Payload
import proofs.«153794_j3977139716930_1_alg».proof.Proof.Blocks
import proofs.«153794_j3977139716930_1_alg».proof.Proof.LibAcc

set_option maxRecDepth 16384

noncomputable section

open scoped BigOperators

namespace Cert.KernelIdeal.Acc

open Idealize.ShloMosaic Idealize.ShloMosaic.TcCoe Idealize.ShloMosaic.ValueIdx Idealize.SL.Sem
open Cert.KernelIdeal Cert.KernelIdeal.Gen Cert.KernelIdeal.Blocks

variable (m : (ℓ : Loc nD τ sig) → Buf (Elt Ideal) ℓ)

/-- What the point before `t` left in the accumulator. -/
abbrev prev (c : Dev nD) (t : Fin cfg0.N) : Vec Ideal S1024x1024 .f32 :=
  (outsAt0 m c (t.val - 1) (Nat.lt_of_le_of_lt (Nat.sub_le _ _) t.isLt)).2

/-- Point `t`'s share at entry `(p, q)`, over the point's blocks. -/
def share (c : Dev nD) (p q : Fin 1024) (t : Fin cfg0.N) : Ideal .f32 :=
  ∑ j : Fin 512, xblk m c t (ix2 p j) * (wblk m c t (ix2 q j)
    * ((∑ r : Fin 16, bblk m c t (ix2 q r) * ablk m c t (ix2 r j)) + Ideal.ofBits .f32 0x3F800000#32))

/-- The first point of a group leaves zero plus its share. -/
theorem acc_first (c : Dev nD) (p q : Fin 1024) (t : Fin cfg0.N) (h0 : t.val % 8 = 0) :
    (outsAt0 m c t.val t.isLt).2 (ix2 p q) = 0 + share m c p q t := by
  have h1 : ¬t.val % 8 = 7 := by omega
  rw [outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (xblk m c t) (wblk m c t) (ablk m c t) (bblk m c t) (biasblk m c t)) (ix2 p q)).trans ?_
  refine (Payload.update_apply (bblk m c t) (ablk m c t) (wblk m c t) (xblk m c t) (k0_pay1 (F := Ideal)) p q).trans ?_
  rw [Payload.reset_apply]
  rfl

/-- Every later point leaves what the point before left plus its share. -/
theorem acc_next (c : Dev nD) (p q : Fin 1024) (t : Fin cfg0.N) (h0 : ¬t.val % 8 = 0) :
    (outsAt0 m c t.val t.isLt).2 (ix2 p q) = prev m c t (ix2 p q) + share m c p q t := by
  by_cases h1 : t.val % 8 = 7
  · rw [outsAt0_C m c t h0 h1]
    dsimp only
    refine (congrFun (Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (wblk m c t) (ablk m c t) (bblk m c t) (biasblk m c t) (prev m c t)) (ix2 p q)).trans ?_
    exact Payload.update_apply (bblk m c t) (ablk m c t) (wblk m c t) (xblk m c t) (prev m c t) p q
  · rw [outsAt0_B m c t h0 h1]
    dsimp only
    refine (congrFun (Pieces.scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (xblk m c t) (wblk m c t) (ablk m c t) (bblk m c t) (biasblk m c t) (prev m c t)) (ix2 p q)).trans ?_
    exact Payload.update_apply (bblk m c t) (ablk m c t) (wblk m c t) (xblk m c t) (prev m c t) p q

/-- The last point of a group writes the accumulator it leaves, plus the bias row, into the result tile. -/
theorem tile_at (c : Dev nD) (p q : Fin 1024) (t : Fin cfg0.N) (h1 : t.val % 8 = 7) :
    (outsAt0 m c t.val t.isLt).1 (ix2 p q) = (outsAt0 m c t.val t.isLt).2 (ix2 p q) + biasblk m c t (ix2 0 q) := by
  have h0 : ¬t.val % 8 = 0 := by omega
  rw [outsAt0_C m c t h0 h1]
  dsimp only
  refine (congrFun (Pieces.tile_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (wblk m c t) (ablk m c t) (bblk m c t) (biasblk m c t) (prev m c t)) (ix2 p q)).trans ?_
  refine (Payload.emit_apply _ (biasblk m c t) p q).trans ?_
  refine congrArg (· + biasblk m c t (ix2 0 q)) ?_
  exact (congrFun (Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (wblk m c t) (ablk m c t) (bblk m c t) (biasblk m c t) (prev m c t)) (ix2 p q)).symm

end Cert.KernelIdeal.Acc

end
-- ==== Proof.Result.lean ====
/-
  The result as a function of the five arguments, and the flat form of it the kernel produces.

  At batch `b`, position `s`, output column `o` the result is

      ∑ i, x[b, s, i] · (W[o, i] · (∑ r, B[o, r] · A[r, i] + 1))  +  bias[o].

  The kernel works on the activations flattened to rows `2048 · b + s` and on the bias as a one-row matrix, and its
  flat result is reshaped back at the end: row-major positions are kept by both reshapes, so entry `(b, s, o)` of the
  reshaped result is entry `(2048 · b + s, o)` of the flat one, which reads `x[b, s, ·]` and `bias[o]`.
-/
import proofs.«153794_j3977139716930_1_alg».proof.Proof.Spec
import Idealize.ShloMosaic.Lib.Pipeline.Value

noncomputable section

open scoped BigOperators

namespace Cert.Lora

open Idealize.ShloMosaic Idealize.ShloMosaic.ValueIdx

/-- The result at `(b, s, o)`. -/
def result (x : (⟨3, ![4, 2048, 4096]⟩ : Shape).Idx → Ideal .f32) (W : (⟨2, ![4096, 4096]⟩ : Shape).Idx → Ideal .f32)
    (A : (⟨2, ![16, 4096]⟩ : Shape).Idx → Ideal .f32) (B : (⟨2, ![4096, 16]⟩ : Shape).Idx → Ideal .f32)
    (bias : (⟨1, ![4096]⟩ : Shape).Idx → Ideal .f32) : (⟨3, ![4, 2048, 4096]⟩ : Shape).Idx → Ideal .f32 :=
  fun j => (∑ i : Fin 4096, x (ix3 (j 0) (j 1) i) * (W (ix2 (j 2) i)
    * ((∑ r : Fin 16, B (ix2 (j 2) r) * A (ix2 r i)) + one))) + bias (ix1 (j 2))

/-- Position `s` of batch `b` is a row of the flattened activations. -/
theorem flat_row_lt (b : Fin 4) (s : Fin 2048) : b.val * 2048 + s.val < 8192 := by
  have := b.isLt; have := s.isLt; omega

/-- The flat result of the flattened activations and the one-row bias, reshaped to rank 3, is the result. -/
theorem unflatten (x : (⟨3, ![4, 2048, 4096]⟩ : Shape).Idx → Ideal .f32) (W : (⟨2, ![4096, 4096]⟩ : Shape).Idx → Ideal .f32)
    (A : (⟨2, ![16, 4096]⟩ : Shape).Idx → Ideal .f32) (B : (⟨2, ![4096, 16]⟩ : Shape).Idx → Ideal .f32)
    (bias : (⟨1, ![4096]⟩ : Shape).Idx → Ideal .f32)
    (h1 : (⟨3, ![4, 2048, 4096]⟩ : Shape).ShapeCasts ⟨2, ![8192, 4096]⟩)
    (h2 : (⟨1, ![4096]⟩ : Shape).ShapeCasts ⟨2, ![1, 4096]⟩)
    (h3 : (⟨2, ![8192, 4096]⟩ : Shape).ShapeCasts ⟨3, ![4, 2048, 4096]⟩) :
    shapeCast ⟨3, ![4, 2048, 4096]⟩
        (flat (shapeCast ⟨2, ![8192, 4096]⟩ x h1) W A B (shapeCast ⟨2, ![1, 4096]⟩ bias h2)) h3
      = result x W A B bias := by
  funext j
  obtain ⟨b, s, o, rfl⟩ : ∃ (b : Fin 4) (s : Fin 2048) (o : Fin 4096), j = ix3 b s o := ⟨j 0, j 1, j 2, eq_ix3 j⟩
  refine (shapeCast_apply _ h3 (ix3 b s o) (ix2 ⟨b.val * 2048 + s.val, flat_row_lt b s⟩ o) ?_).trans ?_
  · rw [Shape.rowMajor_val_two, Shape.rowMajor_val_three]
    rfl
  · show (∑ i : Fin 4096, shapeCast ⟨2, ![8192, 4096]⟩ x h1 (ix2 ⟨b.val * 2048 + s.val, flat_row_lt b s⟩ i)
          * (W (ix2 o i) * ((∑ r : Fin 16, B (ix2 o r) * A (ix2 r i)) + one)))
        + shapeCast ⟨2, ![1, 4096]⟩ bias h2 (ix2 0 o)
      = (∑ i : Fin 4096, x (ix3 b s i) * (W (ix2 o i) * ((∑ r : Fin 16, B (ix2 o r) * A (ix2 r i)) + one)))
        + bias (ix1 o)
    have hx : ∀ i : Fin 4096, shapeCast ⟨2, ![8192, 4096]⟩ x h1 (ix2 ⟨b.val * 2048 + s.val, flat_row_lt b s⟩ i)
        = x (ix3 b s i) := fun i =>
      shapeCast_apply x h1 _ (ix3 b s i) (by rw [Shape.rowMajor_val_three, Shape.rowMajor_val_two]; rfl)
    have hb : shapeCast ⟨2, ![1, 4096]⟩ bias h2 (ix2 0 o) = bias (ix1 o) :=
      shapeCast_apply bias h2 _ (ix1 o) (by
        rw [Shape.rowMajor_val_one, Shape.rowMajor_val_two]
        show o.val = 0 * 4096 + o.val
        omega)
    rw [hb]
    exact congrArg (· + bias (ix1 o)) (Finset.sum_congr rfl fun i _ => by rw [hx i])

end Cert.Lora

end
-- ==== Proof.KernelValue.lean ====
/-
  The kernel's result array.

  The last point of each group of 8 writes back its result tile; by then the accumulator holds, at entry `(p, q)`, the
  sum of the group's 8 shares, which is the sum over all 4096 contraction indices of the summands of row
  `1024 · (t / 32) + p` and column `1024 · ((t / 8) % 4) + q`. So every written tile is a tile of ONE matrix, the flat result
  of the flattened activations; the 32 tiles cover it; and the host's closing reshape reads it back at rank 3.
-/
import proofs.«153794_j3977139716930_1_alg».proof.Proof.Acc
import proofs.«153794_j3977139716930_1_alg».proof.Proof.Result
import Idealize.ShloMosaic.Lib.Pipeline.Value
import Idealize.ShloMosaic.Lib.StableHlo.Run

set_option maxRecDepth 16384

noncomputable section

open scoped BigOperators

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Acc

variable (m : (ℓ : Loc nD τ sig) → Buf (Elt Ideal) ℓ) (ρ : Dev nD → PrngReg)

theorem lt_N {n : ℕ} (hn : n < 32 * 8) : n < cfg0.N := by rw [show cfg0.N = 256 from N_0]; omega

/-- Summands at equal coordinates are equal. -/
theorem term_congr {X : (⟨2, ![8192, 4096]⟩ : Shape).Idx → Ideal .f32} {W : (⟨2, ![4096, 4096]⟩ : Shape).Idx → Ideal .f32}
    {A : (⟨2, ![16, 4096]⟩ : Shape).Idx → Ideal .f32} {B : (⟨2, ![4096, 16]⟩ : Shape).Idx → Ideal .f32}
    {R R' : Fin 8192} {C C' : Fin 4096} {i i' : Fin 4096} (hR : R.val = R'.val) (hC : C.val = C'.val) (hi : i.val = i'.val) :
    Cert.Lora.term X W A B R C i = Cert.Lora.term X W A B R' C' i' := by
  rw [Fin.ext hR, Fin.ext hC, Fin.ext hi]

/-- A point's share is the sum of the summands over its stretch of the contraction axis. -/
theorem share_eq (c : Dev nD) (p q : Fin 1024) (t : Fin cfg0.N) :
    share m c p q t = ∑ j : Fin 512, Cert.Lora.term (xarr m c) (warr m c) (aarr m c) (barr m c)
      ⟨t.val / 32 * 1024 + p.val, row_lt t p⟩ ⟨t.val / 8 % 4 * 1024 + q.val, band_lt t q⟩ ⟨t.val % 8 * 512 + j.val, col_lt t j⟩ := by
  unfold share Cert.Lora.term
  refine Finset.sum_congr rfl fun j _ => ?_
  rw [xblk_apply, wblk_apply]
  refine congrArg (fun z => xarr m c (ix2 ⟨t.val / 32 * 1024 + p.val, row_lt t p⟩ ⟨t.val % 8 * 512 + j.val, col_lt t j⟩)
    * (warr m c (ix2 ⟨t.val / 8 % 4 * 1024 + q.val, band_lt t q⟩ ⟨t.val % 8 * 512 + j.val, col_lt t j⟩) * (z + Cert.Lora.one)))
    (Finset.sum_congr rfl fun r _ => ?_)
  rw [bblk_apply, ablk_apply]

/-- After the last point of a group the accumulator holds the whole sum over the contraction axis. -/
theorem acc_group (c : Dev nD) (p q : Fin 1024) (t : Fin cfg0.N) (h7 : t.val % 8 = 7) :
    (outsAt0 m c t.val t.isLt).2 (ix2 p q)
      = ∑ i : Fin 4096, Cert.Lora.term (xarr m c) (warr m c) (aarr m c) (barr m c)
          ⟨t.val / 32 * 1024 + p.val, row_lt t p⟩ ⟨t.val / 8 % 4 * 1024 + q.val, band_lt t q⟩ i := by
  have hN := lt256 t
  have hb : t.val / 8 < 32 := by omega
  have key := Cert.LibAcc.acc_last_zero (M := EReal) 8 32
    (fun n hn => (outsAt0 m c n (lt_N hn)).2 (ix2 p q))
    (fun n hn => share m c p q ⟨n, lt_N hn⟩) 0 rfl
    (fun n hn h => acc_first m c p q ⟨n, lt_N hn⟩ h)
    (fun n hn h => acc_next m c p q ⟨n, lt_N hn⟩ h)
    (by decide) ⟨t.val / 8, hb⟩
  have e : t.val = t.val / 8 * 8 + (8 - 1) := by omega
  have hl : (outsAt0 m c t.val t.isLt).2 (ix2 p q)
      = (outsAt0 m c (t.val / 8 * 8 + (8 - 1)) (lt_N (Cert.LibAcc.idx_lt (⟨t.val / 8, hb⟩ : Fin 32) (by omega)))).2 (ix2 p q) :=
    Cert.LibAcc.acc_congr 8 32 (fun n hn => (outsAt0 m c n (lt_N hn)).2 (ix2 p q)) e (by omega) (by omega)
  rw [← Cert.Lora.sum_stretches]
  refine hl.trans (key.trans (Finset.sum_congr rfl fun k _ => ?_))
  rw [share_eq]
  refine Finset.sum_congr rfl fun j _ => term_congr ?_ ?_ ?_
  · show (t.val / 8 * 8 + k.val) / 32 * 1024 + p.val = t.val / 32 * 1024 + p.val
    have := k.isLt; omega
  · show (t.val / 8 * 8 + k.val) / 8 % 4 * 1024 + q.val = t.val / 8 % 4 * 1024 + q.val
    have := k.isLt; omega
  · show (t.val / 8 * 8 + k.val) % 8 * 512 + j.val = k.val * 512 + j.val
    have := k.isLt; omega

/-- The flat result of the arrays the region finds. -/
abbrev outArr (c : Dev nD) : Vec Ideal S8192x4096 .f32 :=
  Cert.Lora.flat (xarr m c) (warr m c) (aarr m c) (barr m c) (biasarr m c)

/-- The tile the last point of a group writes is its tile of the flat result. -/
theorem tile_eq (c : Dev nD) (p q : Fin 1024) (t : Fin cfg0.N) (h7 : t.val % 8 = 7) :
    (outsAt0 m c t.val t.isLt).1 (ix2 p q)
      = outArr m c (ix2 ⟨t.val / 32 * 1024 + p.val, row_lt t p⟩ ⟨t.val / 8 % 4 * 1024 + q.val, band_lt t q⟩) := by
  rw [tile_at m c p q t h7, acc_group m c p q t h7, biasblk_apply]
  rfl

/-- What a writing point writes back is its block of the flat result. -/
theorem flushed_eq (c : Dev nD) (t : Fin cfg0.N) (hf : (cfg0.win 5).flush t = true) :
    (dats m 0 c).flushed 5 t = ((cfg0.win 5).blk t).view.read (Elt Ideal) (outArr m c) := by
  have h7 : t.val % 8 = 7 := (flush0_5 t).mp hf
  show (cfg0.win 5).cut (grid0.coords t) ((dats m 0 c).after 5 t) = _
  rw [after0_5]
  funext y
  show (outsAt0 m c t.val t.isLt).1 y = outArr m c (((cfg0.win 5).blk t).view.emb y)
  have hy : (outsAt0 m c t.val t.isLt).1 y = (outsAt0 m c t.val t.isLt).1 (ix2 (y 0) (y 1)) :=
    congrArg (outsAt0 m c t.val t.isLt).1 (eq_ix2 y)
  rw [hy, tile_eq m c (y 0) (y 1) t h7]
  refine congrArg (outArr m c) ?_
  obtain ⟨e0, e1⟩ := idx_out t
  funext a
  apply Fin.ext
  match a with
  | ⟨0, _⟩ => show t.val / 32 * 1024 + (y 0).val = win0_5.index t 0 * 1024 + 1 * (y 0).val; rw [e0]; omega
  | ⟨1, _⟩ => show t.val / 8 % 4 * 1024 + (y 1).val = win0_5.index t 1 * 1024 + 1 * (y 1).val; rw [e1]; omega

/-- An entry of the flat result is in a point's block iff each coordinate is in the block's range. -/
theorem mem_blk (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v2).slice (win0_5.rect t)).set ↔ _
  rw [View.set_slice_whole, Rect.mem_set_unit]
  exact Iff.rfl

/-- Every entry is in the tile of the last point of its group. -/
theorem cover (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  have hn : ((i 0).val / 1024 * 4 + (i 1).val / 1024) * 8 + 7 < cfg0.N := by rw [show cfg0.N = 256 from N_0]; omega
  refine ⟨⟨((i 0).val / 1024 * 4 + (i 1).val / 1024) * 8 + 7, hn⟩, (flush0_5 _).mpr (by show (((i 0).val / 1024 * 4 + (i 1).val / 1024) * 8 + 7) % 8 = 7; omega), ?_⟩
  rw [mem_blk]
  obtain ⟨e0, e1⟩ := idx_out ⟨((i 0).val / 1024 * 4 + (i 1).val / 1024) * 8 + 7, hn⟩
  intro a
  match a with
  | ⟨0, _⟩ =>
    show win0_5.index _ 0 * 1024 ≤ (i 0).val ∧ (i 0).val < win0_5.index _ 0 * 1024 + 1024
    rw [e0]
    show (((i 0).val / 1024 * 4 + (i 1).val / 1024) * 8 + 7) / 32 * 1024 ≤ (i 0).val
      ∧ (i 0).val < (((i 0).val / 1024 * 4 + (i 1).val / 1024) * 8 + 7) / 32 * 1024 + 1024
    omega
  | ⟨1, _⟩ =>
    show win0_5.index _ 1 * 1024 ≤ (i 1).val ∧ (i 1).val < win0_5.index _ 1 * 1024 + 1024
    rw [e1]
    show (((i 0).val / 1024 * 4 + (i 1).val / 1024) * 8 + 7) / 8 % 4 * 1024 ≤ (i 1).val
      ∧ (i 1).val < (((i 0).val / 1024 * 4 + (i 1).val / 1024) * 8 + 7) / 8 % 4 * 1024 + 1024
    omega

/-- So the array the launch writes ends holding the flat result. -/
theorem final (c : Dev nD) : (dats m 0 c).arrAt 5 cfg0.N = outArr m c :=
  (dats m 0 c).arrAt_eq_of_cover 5 (outArr m c) (flushed_eq m c) (fun i => cover i)

/-- The host's closing reshape reads it back at rank 3. -/
theorem tail_eq (c : Dev nD) :
    Pipeline.afterTail₀ cfgs (dats m) 0 (V0 m) [hostOps1] c main_v3
      = shapeCast S4x2048x4096 (outArr m c) shapeCasts_S8192x4096_S4x2048x4096 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = outArr m c := (Pipeline.withArrays_arr spec0 launch0.win.arr_inj c _ _ 5).trans (final m c)
  rw [hw]
  rfl

/-- Over the arguments themselves: the flattened activations and the one-row bias are the arguments reshaped, the
    other three arrays the arguments as launched; so the reshaped flat result is the result function of the arguments. -/
theorem result_eq (c : Dev nD) :
    shapeCast S4x2048x4096 (outArr m c) shapeCasts_S8192x4096_S4x2048x4096
      = Cert.Lora.result (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg2)) := by
  show shapeCast S4x2048x4096 (Cert.Lora.flat (xarr m c) (warr m c) (aarr m c) (barr m c) (biasarr m c)) shapeCasts_S8192x4096_S4x2048x4096 = _
  rw [xarr_eq, biasarr_eq, show warr m c = m ((c.tc : Thread nD τ).loc main_arg1) from V_main_arg1 m c,
    show aarr m c = m ((c.tc : Thread nD τ).loc main_arg3) from V_main_arg3 m c,
    show barr m c = m ((c.tc : Thread nD τ).loc main_arg4) from V_main_arg4 m c]
  exact Cert.Lora.unflatten _ _ _ _ _ _ _ _

/-- The run, read: every weakly fair execution ends with the result buffer at the result function of the arguments as
    launched, and the arguments unchanged. -/
theorem run : θ_run defs (onTc (τ := τ) (main (F := Ideal))) ⟨m, fun _ => 0, ρ⟩ fun r => ∀ c : Dev nD,
      r.2.mem ((c.tc : Thread nD τ).loc main_v3)
        = Cert.Lora.result (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v3 (Pipeline.mem_restRefs_of main_v3 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Whole

end
-- ==== Proof.RefValue.lean ====
/-
  The reference computes the result function.

  Read one operation at a time at entry `(b, s, o)`: the last sum adds the bias of column `o`, broadcast over batches
  and positions, to the product of activation row `(b, s)` with row `o` of the adapted weight; the adapted weight at
  `(o, i)` is `W[o, i]` times the transpose, read at `(i, o)`, of one plus the rank-16 product `∑ r, A[r, i] · B[o, r]`.
  The kernel's rank-16 product has its factors in the other order: multiplication of extended reals commutes.
-/
import proofs.«153794_j3977139716930_1_alg».proof.Proof.Gen.ReferenceIdeal.Read
import proofs.«153794_j3977139716930_1_alg».proof.Proof.Result

noncomputable section

open scoped BigOperators

namespace Cert.ReferenceIdeal.RefValue

open Idealize.ShloMosaic Idealize.ShloMosaic.ValueIdx
open Cert.ReferenceIdeal Cert.ReferenceIdeal.Read

theorem reference_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    val_main_v8 (F := Ideal) x0 x1 x2 x3 x4 = Cert.Lora.result x0 x1 x3 x4 x2 := by
  funext j
  obtain ⟨b, s, o, rfl⟩ : ∃ (b : Fin 4) (s : Fin 2048) (o : Fin 4096), j = ix3 b s o := ⟨j 0, j 1, j 2, eq_ix3 j⟩
  rw [val_main_v8_apply, val_main_v5_apply, val_main_v7_apply, val_main_v6_apply]
  show (∑ k : Fin 4096, x0 (lidx_main_v5 (ix3 b s o) k) * val_main_v4 (F := Ideal) x1 x3 x4 (ridx_main_v5 (ix3 b s o) k))
      + x2 (idx_main_v6 (idx_main_v7 (ix3 b s o)))
    = (∑ i : Fin 4096, x0 (ix3 b s i) * (x1 (ix2 o i) * ((∑ r : Fin 16, x4 (ix2 o r) * x3 (ix2 r i)) + Cert.Lora.one)))
      + x2 (ix1 o)
  have hbias : idx_main_v6 (idx_main_v7 (ix3 b s o)) = ix1 o := funext fun a => Fin.ext (by
    match a with
    | ⟨0, _⟩ => rfl)
  rw [hbias]
  refine congrArg (· + x2 (ix1 o)) (Finset.sum_congr rfl fun k _ => ?_)
  have e1 : lidx_main_v5 (ix3 b s o) k = ix3 b s k := funext fun a => Fin.ext (by
    match a with
    | ⟨0, _⟩ => rfl
    | ⟨1, _⟩ => rfl
    | ⟨2, _⟩ => rfl)
  have e2 : ridx_main_v5 (ix3 b s o) k = ix2 o k := funext fun a => Fin.ext (by
    match a with
    | ⟨0, _⟩ => rfl
    | ⟨1, _⟩ => rfl)
  have e3 : ∀ r : Fin 16, lidx_main_v0 (idx_main_v3 (ix2 o k)) r = ix2 r k := fun r => funext fun a => Fin.ext (by
    match a with
    | ⟨0, _⟩ => rfl
    | ⟨1, _⟩ => rfl)
  have e4 : ∀ r : Fin 16, ridx_main_v0 (idx_main_v3 (ix2 o k)) r = ix2 o r := fun r => funext fun a => Fin.ext (by
    match a with
    | ⟨0, _⟩ => rfl
    | ⟨1, _⟩ => rfl)
  rw [e1, e2, val_main_v4_apply, val_main_v3_apply, val_main_v2_apply, val_main_v0_apply, val_main_v1_apply, val_main_cst_apply]
  show x0 (ix3 b s k) * (x1 (ix2 o k) * ((∑ r : Fin 16, x3 (lidx_main_v0 (idx_main_v3 (ix2 o k)) r) * x4 (ridx_main_v0 (idx_main_v3 (ix2 o k)) r))
      + Cert.Lora.one)) = _
  refine congrArg (fun z => x0 (ix3 b s k) * (x1 (ix2 o k) * (z + Cert.Lora.one))) (Finset.sum_congr rfl fun r _ => ?_)
  rw [e3 r, e4 r, mul_comm]

end Cert.ReferenceIdeal.RefValue

end
-- ==== Proof.lean ====
/-
  The kernel against its reference, over the extended reals.

  Both programs compute, at batch `b`, position `s` and output column `o`,

      ∑ i, x[b, s, i] · (W[o, i] · (∑ r, B[o, r] · A[r, i] + 1))  +  bias[o]:

  a linear layer whose weight is scaled entry by entry by one plus a rank-16 product. The reference forms the scaled
  weight once and contracts over all 4096 input indices. The kernel tiles the result into 1024 × 1024 tiles and, tile
  by tile, adds the contraction up in 8 stretches of 512 indices in an accumulator that it zeroes at the first stretch
  and to which it adds the bias after the last, forming the scaled weight block it needs at each step.

  The two agree because a sum over 4096 indices is the sum of its 8 stretch sums (commutativity and associativity
  of `+`, which hold on the extended reals, infinities included), because the rank-16 product's factors commute, and
  because a change of float format is the identity over the extended reals. No finiteness of the inputs is used.

  The modules: the result function and the stretch law (Spec, Result); what one grid point stores, as values
  (Pieces, Payload); where its blocks sit in their arrays (Blocks); the accumulator point by point (Acc); the
  kernel's result array and its run (KernelValue); the reference read operation by operation (RefValue).
-/
import proofs.«153794_j3977139716930_1_alg».proof.Defs
import proofs.«153794_j3977139716930_1_alg».proof.Proof.Gen.Kernel
import proofs.«153794_j3977139716930_1_alg».proof.Proof.Gen.Kernel.Skeleton
import proofs.«153794_j3977139716930_1_alg».proof.Proof.Gen.Kernel.Launch
import proofs.«153794_j3977139716930_1_alg».proof.Proof.Gen.Kernel.Points
import proofs.«153794_j3977139716930_1_alg».proof.Proof.Gen.Kernel.Frame
import proofs.«153794_j3977139716930_1_alg».proof.Proof.Gen.KernelIdeal
import proofs.«153794_j3977139716930_1_alg».proof.Proof.Gen.KernelIdeal.Skeleton
import proofs.«153794_j3977139716930_1_alg».proof.Proof.Gen.KernelIdeal.Launch
import proofs.«153794_j3977139716930_1_alg».proof.Proof.Gen.KernelIdeal.Points
import proofs.«153794_j3977139716930_1_alg».proof.Proof.Gen.KernelIdeal.Frame
import proofs.«153794_j3977139716930_1_alg».proof.Proof.Gen.ReferenceIdeal
import proofs.«153794_j3977139716930_1_alg».proof.Proof.Gen.ReferenceIdeal.Run
import proofs.«153794_j3977139716930_1_alg».proof.Proof.Gen.ReferenceIdeal.Read
import proofs.«153794_j3977139716930_1_alg».proof.Proof.Gen.Pre_finite_inputs
import proofs.«153794_j3977139716930_1_alg».proof.Proof.KernelValue
import proofs.«153794_j3977139716930_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the result function of those arguments in their result buffers. -/
theorem algebraic : Cert.algebraic_KernelIdeal_ReferenceIdeal := by
  intro m ρ m' ρ' _ hagree
  refine ⟨fun c => Cert.Lora.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
